-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256 .f32) (main_arg8 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S1 32) (main_arg3 : FVec F S256x256 .f32) (main_arg4 : FVec F S256 .f32) (main_arg5 : FVec F S256x256 .f32) (main_arg6 : FVec F S256x256 .f32) (main_arg7 : FVec F S256 .f32) (main_arg8 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S1 : Shape := ⟨1, ![1]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S5000x256 : Shape := ⟨2, ![5000, 256]⟩
abbrev S1x1 : Shape := ⟨2, ![1, 1]⟩
abbrev S5000x1 : Shape := ⟨2, ![5000, 1]⟩
abbrev S5000 : Shape := ⟨1, ![5000]⟩

abbrev nBuf : Space → Nat
  | .hbm => 84
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S1, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S1, .i32⟩
  | .hbm, ⟨67, _⟩ => ⟨S1x1, .i32⟩
  | .hbm, ⟨68, _⟩ => ⟨S1x256, .f32⟩
  | .hbm, ⟨69, _⟩ => ⟨S50000x1, .f32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S50000, .f32⟩
  | .hbm, ⟨83, _⟩ => ⟨S50000, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S1x256, .f32⟩
  | .local _ .vmem, ⟨21, _⟩ => ⟨S5000x1, .f32⟩
  | .local _ .vmem, ⟨22, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S1 : S_.BroadcastsInDim S1 (![] : Fin 0 → Fin S1.rank)
  bcast_S1_S1x1_0 : S1.BroadcastsInDim S1x1 (![0] : Fin 1 → Fin S1x1.rank)
  reduces_S5000x256_S5000 : S5000x256.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  reducesTo_S50000_S_d0 : S50000.ReducesTo [0] S_
  h_S_ : 0 < S_.numel
  bcast_S1_S50000_0 : S1.BroadcastsInDim S50000 (![0] : Fin 1 → Fin S50000.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  gather_S50000x256_S1x1_S1x256_1_0_n_n_0_1_1256_wf : GatherDims.WF S50000x256 S1x1 S1x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S1x1_S1x256_1_0_n_n_0_1_1256 : GatherDims S50000x256 S1x1 S1x256 where
  offsetDims := [1]
  collapsedSliceDims := [0]
  operandBatchingDims := []
  startIndicesBatchingDims := []
  startIndexMap := [0]
  indexVectorDim := 1
  sliceSizes := ![1, 256]
  wf := gather_S50000x256_S1x1_S1x256_1_0_n_n_0_1_1256_wf

abbrev win0_0 : Pipeline.Window sig grid0 :=
  Pipeline.Window.ofSpec (Memref.whole main_v24) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S1 : Shape := ⟨1, ![1]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S1, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x256, .f32⟩
  | .hbm, ⟨37, _⟩ => ⟨S50000x256, .f32⟩
  | .hbm, ⟨38, _⟩ => ⟨S256x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S256x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S256x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S256x256, .f32⟩
  | .hbm, ⟨80, _⟩ => ⟨S50000x256, .f32⟩
  | .hbm, ⟨81, _⟩ => ⟨S50000x256, .f32⟩
  | .hbm, ⟨82, _⟩ => ⟨S_, .i32⟩
  | .hbm, ⟨83, _⟩ => ⟨S1, .i32⟩
  | .hbm, ⟨84, _⟩ => ⟨S1, .i1⟩
  | .hbm, ⟨85, _⟩ => ⟨S_, .i32⟩
  | .hbm, ⟨86, _⟩ => ⟨S1, .i32⟩
  | .hbm, ⟨87, _⟩ => ⟨S1, .i32⟩
  | .hbm, ⟨88, _⟩ => ⟨S1, .i32⟩
  | .hbm, ⟨89, _⟩ => ⟨S1x1, .i32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1, .f32⟩
  | .hbm, ⟨100, _⟩ => ⟨S50000, .f32⟩
  | .hbm, ⟨101, _⟩ => ⟨S50000, .f32⟩
  | .hbm, ⟨102, _⟩ => ⟨S50000, .f32⟩
  | .hbm, ⟨103, _⟩ => ⟨S_, .f32⟩
  | .hbm, ⟨104, _⟩ => ⟨S_, .f32⟩
  | .hbm, ⟨105, _⟩ => ⟨S1, .f32⟩
  | .hbm, ⟨106, _⟩ => ⟨S50000, .f32⟩
  | .hbm, ⟨107, _⟩ => ⟨S50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S1 : S_.BroadcastsInDim S1 (![] : Fin 0 → Fin S1.rank)
  bcast_S1_S1x1_0 : S1.BroadcastsInDim S1x1 (![0] : Fin 1 → Fin S1x1.rank)
  reducesTo_S50000x256_S50000_d1 : S50000x256.ReducesTo [1] S50000
  h_S_ : 0 < S_.numel
  reducesTo_S50000_S_d0 : S50000.ReducesTo [0] S_
  bcast_S1_S50000_0 : S1.BroadcastsInDim S50000 (![0] : Fin 1 → Fin S50000.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S1x1_S1x256_1_0_n_n_0_1_1256_wf : GatherDims.WF S50000x256 S1x1 S1x256 [1] [0] [] [0] [] 1 ![1, 256]

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S1x1_S1x256_1_0_n_n_0_1_1256 : GatherDims S50000x256 S1x1 S1x256 where
  offsetDims := [1]
  collapsedSliceDims := [0]
  operandBatchingDims := []
  startIndicesBatchingDims := []
  startIndexMap := [0]
  indexVectorDim := 1
  sliceSizes := ![1, 256]
  wf := gather_S50000x256_S1x1_S1x256_1_0_n_n_0_1_1256_wf

class Facts : Prop extends Facts₀ where

variable [Facts]
-- ==== Proof.SageSpec.lean ====
/-
  Two-layer mean-aggregation graph convolution followed by a dot product against one picked row: the functions
  the three kernel regions compute, over the extended reals, index by index, and the two laws that join the
  kernel's arrangement to the reference's.

  One layer sends a mean array `a` and a feature array `x` (both 50000 × 256), two weight matrices (256 × 256,
  used by rows: the product is against the transpose) and a bias row to
      out (p, q) = Σ_k a (p, k) · wl (q, k)  +  Σ_k x (p, k) · wr (q, k)  +  b (0, q).
  The logits of a feature array `h` against a row `r` are  Σ_d h (p, d) · r (0, d).
  The kernel multiplies the aggregated sum by the reciprocal of the clamped in-degree, the reference divides by
  it: since the clamped degree is at least one it is not zero, and off zero the quotient IS the product with the
  inverse, so the two agree on every extended real. The kernel adds the bias last, the reference between the two
  products: addition of extended reals is commutative and associative.
-/
import Idealize.ShloMosaic.PureOps.Ideal.Laws
import Idealize.ShloMosaic.Lib.ValueIdx

noncomputable section

open scoped BigOperators

namespace Cert.Sage

open Idealize.ShloMosaic Idealize.ShloMosaic.ValueIdx

/-- A matrix of extended reals. -/
abbrev Mat (r c : Nat) : Type := (⟨2, ![r, c]⟩ : Shape).Idx → EReal

/-- One layer before its activation. -/
def layerSum (a x : Mat 50000 256) (wl wr : Mat 256 256) (b : Mat 1 256) : Mat 50000 256 := fun i =>
  (∑ k : Fin 256, a (ix2 (i 0) k) * wl (ix2 (i 1) k)) + (∑ k : Fin 256, x (ix2 (i 0) k) * wr (ix2 (i 1) k)) + b (ix2 0 (i 1))

/-- The dot product of every row with one picked row, kept as a column. -/
def logitsOf (h : Mat 50000 256) (r : Mat 1 256) : Mat 50000 1 := fun i =>
  ∑ d : Fin 256, h (ix2 (i 0) d) * r (ix2 0 d)

/-- Off zero the quotient is the product with the inverse; so multiplying by the reciprocal of a number that is at
    least one is dividing by it, on every extended real. -/
theorem mul_recip_eq_div (a y : EReal) (hy : (1 : EReal) ≤ y) : a * Ideal.div 1 y = Ideal.div a y := by
  have hne : y ≠ 0 := fun h => by
    rw [h] at hy
    exact absurd hy (by norm_num)
  unfold Ideal.div
  rw [if_neg hne, if_neg hne, one_mul]

/-- The bias may be added between the two products or after them. -/
theorem add_bias_last (A B b : EReal) : (A + b) + B = (A + B) + b := add_right_comm A b B

end Cert.Sage

end
-- ==== Proof.SageConsts.lean ====
/-
  The one float constant the two programs spell besides zero: the pattern of 1.0 denotes the extended real 1.
-/
import Idealize.ShloMosaic.PureOps.Ideal

noncomputable section

namespace Cert.Sage

open Idealize.ShloMosaic

/-- The binary32 pattern 0x3F800000 is the number one. -/
theorem ofBits_one : Ideal.ofBits .f32 0x3F800000#32 = 1 := by
  simp [Ideal.ofBits, Ideal.ieee, -EReal.coe_mul]; norm_num

end Cert.Sage

end
-- ==== Proof.LibColumnCast.lean ====
/-
  A COLUMN READ AS A VECTOR (a general lemma; it mentions no program).

  An array of shape [a, 1] recast to shape [a] keeps its entries in row-major order, and row-major position of (i, 0)
  in [a, 1] is i, the position of i in [a].  So the recast array at i is the column at (i, 0).
-/
import Idealize.ShloMosaic.Lib.Pipeline.Value
import Idealize.ShloMosaic.Lib.ValueIdx

namespace Cert.Lib.ColumnCast

open Idealize.ShloMosaic Idealize.ShloMosaic.ValueIdx

variable {α : Type}

/-- An `[a, 1]` array recast as the vector `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast
-- ==== Proof.Region0.lean ====
/-
  The first dense layer of the graph convolution, read off the ten row blocks the grid visits.

  At grid point t the body holds rows 5000 t … 5000 t + 4999 of the mean array and of the feature array, the two
  256 × 256 weight matrices whole and the bias row whole, and stores
      max (mean block · Wlᵀ + feature block · Wrᵀ + bias, 0)
  into the output's row block t. Entry (p, q) of a block product against a transposed matrix is the sum over k of the
  block's (p, k) times the matrix's (q, k), so the stored block's entry (p, q) is entry (5000 t + p, q) of the clipped
  layer of the five arrays. The ten row blocks tile the 50000 rows (row r lies in block r / 5000), so after the last
  point the output array is the clipped layer everywhere.
-/
import proofs.«167765_j85134841741882_1_alg».proof.Proof.Gen.KernelIdeal.Frame
import proofs.«167765_j85134841741882_1_alg».proof.Proof.SageSpec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Layer1

/-! ## The product of a row block with a transposed weight matrix, entry by entry -/

/-- Left operand's row axis: the output's row. -/
theorem prod0_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Left operand's column axis: the summation index. -/
theorem prod0_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- Right operand's row axis: the summation index. -/
theorem prod0_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- Right operand's column axis: the output's column. -/
theorem prod0_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A transposed square matrix read at (k, q) is the matrix at (q, k). -/
theorem transpose0_apply {φ : FTy} (w : FVec Ideal S256x256 φ) (k q : Fin 256) :
    transpose S256x256 [1, 0] w transposes_S256x256_p1_0_S256x256 (ix2 k q) = w (ix2 q k) :=
  transpose_apply [1, 0] w transposes_S256x256_p1_0_S256x256 (ix2 k q) (ix2 q k) (fun b => match b with
    | ⟨0, _⟩ => rfl
    | ⟨1, _⟩ => rfl)

/-- A row block times the transpose of a weight matrix, accumulated from zero: entry (p, q) is the sum over k of
    the block's (p, k) times the weight's (q, k). -/
theorem prod0_apply {φ₁ φ₂ : FTy} (y : FVec Ideal S5000x256 φ₁) (w : FVec Ideal S256x256 φ₂) (p : Fin 5000) (q : Fin 256) :
    matmul dot_S5000x256_S256x256_S5000x256_1_0_0_1_n_n none y
        (transpose S256x256 [1, 0] w transposes_S256x256_p1_0_S256x256) (constant S5000x256 .f32 0x00000000#32) (ix2 p q)
      = ∑ k : Fin 256, y (ix2 p k) * w (ix2 q k) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact prod0_lhs_0 _ _
    | ⟨1, _⟩ => exact (prod0_lhs_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (prod0_rhs_0 _ _).trans hk
    | ⟨1, _⟩ => exact prod0_rhs_1 _ _)
  rw [el, er, transpose0_apply]

/-- The bias row broadcast down the rows, read at (p, q), is the row's entry q. -/
theorem bias0_apply (r : FVec Ideal S1x256 .f32) (p : Fin 5000) (q : Fin 256) :
    broadcastTo S5000x256 r broadcasts_S1x256_S5000x256 (ix2 p q) = r (ix2 0 q) :=
  broadcastTo_apply r broadcasts_S1x256_S5000x256 (ix2 p q) (ix2 0 q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- THE FIRST LAYER'S BLOCK AT AN ENTRY: the mean block's row p against row q of the left weights, plus the feature
    block's row p against row q of the right weights, plus the bias at q, clipped below at zero. -/
theorem layer0_block_apply (x0 x1 : Vec Ideal S5000x256 .f32) (x2 x4 : Vec Ideal S256x256 .f32) (x3 : Vec Ideal S1x256 .f32)
    (p : Fin 5000) (q : Fin 256) :
    k0_pay1 x0 x1 x2 x4 x3 (ix2 p q)
      = max ((∑ k : Fin 256, x0 (ix2 p k) * x2 (ix2 q k)) + (∑ k : Fin 256, x1 (ix2 p k) * x4 (ix2 q k)) + x3 (ix2 0 q)) 0 := by
  unfold k0_pay1
  rw [maximumf_apply, addf_apply, addf_apply, prod0_apply, prod0_apply, bias0_apply, broadcast_apply]
  simp only [truncf_apply, shapeCast_self]
  exact congrArg (max _) Ideal.ofBits_zero_f32

/-! ## From the blocks to the arrays -/

theorem zero_offsets0 : (![0, 0] : Fin 2 → Nat) = fun _ => 0 := funext fun a => by fin_cases a <;> rfl

/-- The grid has ten points. -/
theorem point0_lt (t : Fin cfg0.N) : t.val < 10 := lt_of_lt_of_eq t.isLt N_0

/-- The first layer's block with its operands' entries named as entries of five arrays: when rows p of the two moving
    blocks are rows r of the mean and feature arrays and the weights and bias are read whole, entry (p, q) of the block
    is entry (r, q) of the clipped layer. -/
theorem layer0_block_of_arrays (x0 x1 : Vec Ideal S5000x256 .f32) (x2 x4 : Vec Ideal S256x256 .f32) (x3 : Vec Ideal S1x256 .f32)
    (a x : Sage.Mat 50000 256) (wl wr : Sage.Mat 256 256) (b : Sage.Mat 1 256) (r : Fin 50000) (p : Fin 5000) (q : Fin 256)
    (h0 : ∀ k, x0 (ix2 p k) = a (ix2 r k)) (h1 : ∀ k, x1 (ix2 p k) = x (ix2 r k))
    (h2 : ∀ k, x2 (ix2 q k) = wl (ix2 q k)) (h4 : ∀ k, x4 (ix2 q k) = wr (ix2 q k)) (h3 : x3 (ix2 0 q) = b (ix2 0 q)) :
    k0_pay1 x0 x1 x2 x4 x3 (ix2 p q) = max (Sage.layerSum a x wl wr b (ix2 r q)) 0 := by
  rw [layer0_block_apply]
  show _ = max ((∑ k : Fin 256, a (ix2 r k) * wl (ix2 q k)) + (∑ k : Fin 256, x (ix2 r k) * wr (ix2 q k)) + b (ix2 0 q)) 0
  have e0 : (∑ k : Fin 256, x0 (ix2 p k) * x2 (ix2 q k)) = ∑ k : Fin 256, a (ix2 r k) * wl (ix2 q k) :=
    Finset.sum_congr rfl fun k _ => by rw [h0 k, h2 k]
  have e1 : (∑ k : Fin 256, x1 (ix2 p k) * x4 (ix2 q k)) = ∑ k : Fin 256, x (ix2 r k) * wr (ix2 q k) :=
    Finset.sum_congr rfl fun k _ => by rw [h1 k, h4 k]
  rw [e0, e1, h3]

/-- The same at any index y of the block, for the block of point t: the array row is 5000 t + the row inside the block. -/
theorem layer0_block_rows (x0 x1 : Vec Ideal S5000x256 .f32) (x2 x4 : Vec Ideal S256x256 .f32) (x3 : Vec Ideal S1x256 .f32)
    (a x : Sage.Mat 50000 256) (wl wr : Sage.Mat 256 256) (b : Sage.Mat 1 256) (t : Fin cfg0.N)
    (h0 : ∀ (p : Fin 5000) (k : Fin 256), x0 (ix2 p k) = a (ix2 ⟨5000 * t.val + p.val, by have := point0_lt t; have := p.isLt; omega⟩ k))
    (h1 : ∀ (p : Fin 5000) (k : Fin 256), x1 (ix2 p k) = x (ix2 ⟨5000 * t.val + p.val, by have := point0_lt t; have := p.isLt; omega⟩ k))
    (h2 : ∀ q k : Fin 256, x2 (ix2 q k) = wl (ix2 q k)) (h4 : ∀ q k : Fin 256, x4 (ix2 q k) = wr (ix2 q k))
    (h3 : ∀ q : Fin 256, x3 (ix2 0 q) = b (ix2 0 q)) (y : S5000x256.Idx) :
    k0_pay1 x0 x1 x2 x4 x3 y
      = max (Sage.layerSum a x wl wr b (ix2 ⟨5000 * t.val + (y 0).val, by have := point0_lt t; have := idx2_lt0 y; omega⟩ ⟨(y 1).val, idx2_lt1 y⟩)) 0 := by
  obtain ⟨p, q, rfl⟩ : ∃ (p : Fin 5000) (q : Fin 256), y = ix2 p q := ⟨y 0, y 1, eq_ix2 y⟩
  exact layer0_block_of_arrays x0 x1 x2 x4 x3 a x wl wr b _ p q (h0 p) (h1 p) (h2 q) (h4 q) (h3 q)

/-- Where each window's block sits at point t, decided over the ten points: the mean, feature and output blocks are
    row block t; the two weight matrices and the bias row are taken whole. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean block at point t is rows 5000 t … 5000 t + 4999 of the mean array. -/
theorem mean_block0 (c : Dev nD) (a : Sage.Mat 50000 256) (ha : V c main_v24 = a) (t : Fin cfg0.N) (p : Fin 5000) (k : Fin 256) :
    (iblk0 V c 0 t : Vec Ideal S5000x256 .f32) (ix2 p k)
      = a (ix2 ⟨5000 * t.val + p.val, by have := point0_lt t; have := p.isLt; omega⟩ k) := by
  show V c main_v24 (((cfg0.win 0).blk t).view.emb _) = _
  rw [ha]
  refine congrArg a (funext fun d => Fin.ext ?_)
  match d with
  | ⟨0, _⟩ =>
    show win0_0.index t (0 : Fin 2) * 5000 + 1 * p.val = 5000 * t.val + p.val
    rw [(block_index0 t).1]; omega
  | ⟨1, _⟩ =>
    show win0_0.index t (1 : Fin 2) * 256 + 1 * k.val = k.val
    rw [(block_index0 t).2.1]; omega

/-- The feature block at point t is the same rows of the feature array. -/
theorem feature_block0 (c : Dev nD) (x : Sage.Mat 50000 256) (hx : V c main_arg0 = x) (t : Fin cfg0.N) (p : Fin 5000) (k : Fin 256) :
    (iblk0 V c 1 t : Vec Ideal S5000x256 .f32) (ix2 p k)
      = x (ix2 ⟨5000 * t.val + p.val, by have := point0_lt t; have := p.isLt; omega⟩ k) := by
  show V c main_arg0 (((cfg0.win 1).blk t).view.emb _) = _
  rw [hx]
  refine congrArg x (funext fun d => Fin.ext ?_)
  match d with
  | ⟨0, _⟩ =>
    show win0_1.index t (0 : Fin 2) * 5000 + 1 * p.val = 5000 * t.val + p.val
    rw [(block_index0 t).2.2.1]; omega
  | ⟨1, _⟩ =>
    show win0_1.index t (1 : Fin 2) * 256 + 1 * k.val = k.val
    rw [(block_index0 t).2.2.2.1]; omega

/-- The left weights' block is the whole matrix at every point. -/
theorem left_weights_block0 (c : Dev nD) (wl : Sage.Mat 256 256) (hwl : V c main_arg3 = wl) (t : Fin cfg0.N) (q k : Fin 256) :
    (iblk0 V c 2 t : Vec Ideal S256x256 .f32) (ix2 q k) = wl (ix2 q k) := by
  show V c main_arg3 (((cfg0.win 2).blk t).view.emb _) = _
  rw [hwl]
  refine congrArg wl (funext fun d => Fin.ext ?_)
  match d with
  | ⟨0, _⟩ =>
    show win0_2.index t (0 : Fin 2) * 256 + 1 * q.val = q.val
    rw [(block_index0 t).2.2.2.2.1]; omega
  | ⟨1, _⟩ =>
    show win0_2.index t (1 : Fin 2) * 256 + 1 * k.val = k.val
    rw [(block_index0 t).2.2.2.2.2.1]; omega

/-- The bias row's block is the whole row at every point. -/
theorem bias_block0 (c : Dev nD) (b : Sage.Mat 1 256) (hb : V c main_v25 = b) (t : Fin cfg0.N) (q : Fin 256) :
    (iblk0 V c 3 t : Vec Ideal S1x256 .f32) (ix2 0 q) = b (ix2 0 q) := by
  show V c main_v25 (((cfg0.win 3).blk t).view.emb _) = _
  rw [hb]
  refine congrArg b (funext fun d => Fin.ext ?_)
  match d with
  | ⟨0, _⟩ =>
    show win0_3.index t (0 : Fin 2) * 1 + 1 * 0 = 0
    rw [(block_index0 t).2.2.2.2.2.2.1]
  | ⟨1, _⟩ =>
    show win0_3.index t (1 : Fin 2) * 256 + 1 * q.val = q.val
    rw [(block_index0 t).2.2.2.2.2.2.2.1]; omega

/-- The right weights' block is the whole matrix at every point. -/
theorem right_weights_block0 (c : Dev nD) (wr : Sage.Mat 256 256) (hwr : V c main_arg5 = wr) (t : Fin cfg0.N) (q k : Fin 256) :
    (iblk0 V c 4 t : Vec Ideal S256x256 .f32) (ix2 q k) = wr (ix2 q k) := by
  show V c main_arg5 (((cfg0.win 4).blk t).view.emb _) = _
  rw [hwr]
  refine congrArg wr (funext fun d => Fin.ext ?_)
  match d with
  | ⟨0, _⟩ =>
    show win0_4.index t (0 : Fin 2) * 256 + 1 * q.val = q.val
    rw [(block_index0 t).2.2.2.2.2.2.2.2.1]; omega
  | ⟨1, _⟩ =>
    show win0_4.index t (1 : Fin 2) * 256 + 1 * k.val = k.val
    rw [(block_index0 t).2.2.2.2.2.2.2.2.2.1]; omega

/-- WHAT POINT t WRITES BACK is row block t of the clipped layer of the five arrays. -/
theorem flushed0 (c : Dev nD) (a x : Sage.Mat 50000 256) (wl wr : Sage.Mat 256 256) (b : Sage.Mat 1 256)
    (ha : V c main_v24 = a) (hx : V c main_arg0 = x) (hwl : V c main_arg3 = wl) (hb : V c main_v25 = b) (hwr : V c main_arg5 = wr)
    (t : Fin cfg0.N) :
    (dat0 V c).flushed 5 t
      = ((cfg0.win 5).blk t).view.read (Elt Ideal) ((fun i => max (Sage.layerSum a x wl wr b i) 0) : Sage.Mat 50000 256) := by
  show (cfg0.win 5).cut (grid0.coords t) ((dat0 V c).after 5 t) = _
  rw [after0_5]
  unfold out0_5
  rw [View.canon_unit_zero zero_offsets0]
  simp only [View.ld_unit_zero (S := S5000x256) zero_offsets0, View.ld_unit_zero (S := S256x256) zero_offsets0, View.ld_unit_zero (S := S1x256) zero_offsets0]
  funext y
  show k0_pay1 (iblk0 V c 0 t) (iblk0 V c 1 t) (iblk0 V c 2 t) (iblk0 V c 4 t) (iblk0 V c 3 t) y
    = max (Sage.layerSum a x wl wr b (((cfg0.win 5).blk t).view.emb y)) 0
  refine (layer0_block_rows (iblk0 V c 0 t) (iblk0 V c 1 t) (iblk0 V c 2 t) (iblk0 V c 4 t) (iblk0 V c 3 t) a x wl wr b t
    (mean_block0 V c a ha t) (feature_block0 V c x hx t) (left_weights_block0 V c wl hwl t) (right_weights_block0 V c wr hwr t)
    (bias_block0 V c b hb t) y).trans ?_
  refine congrArg (fun i => max (Sage.layerSum a x wl wr b i) 0) (funext fun d => Fin.ext ?_)
  match d with
  | ⟨0, _⟩ =>
    show 5000 * t.val + (y 0).val = win0_5.index t (0 : Fin 2) * 5000 + 1 * (y 0).val
    rw [(block_index0 t).2.2.2.2.2.2.2.2.2.2.1]; omega
  | ⟨1, _⟩ =>
    show (y 1).val = win0_5.index t (1 : Fin 2) * 256 + 1 * (y 1).val
    rw [(block_index0 t).2.2.2.2.2.2.2.2.2.2.2]; omega

/-- An index of the output array is in point t's block iff each coordinate is in the block's range on its axis. -/
theorem mem_block0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v26).slice (win0_5.rect t)).set ↔ _
  rw [View.set_slice_whole, Rect.mem_set_unit]
  exact Iff.rfl

/-- Every index of the output array is in some point's block: row r is in the block of point r / 5000. -/
theorem cover0 (i : S50000x256.Idx) : ∃ t : Fin cfg0.N, (cfg0.win 5).flush t = true ∧ i ∈ ((cfg0.win 5).blk t).view.set := by
  have hi0 : (i 0).val < 50000 := idx2_lt0 i
  have hi1 : (i 1).val < 256 := idx2_lt1 i
  obtain ⟨t, ht⟩ : ∃ t : Fin cfg0.N, t.val = (i 0).val / 5000 := ⟨⟨(i 0).val / 5000, lt_of_lt_of_eq (by omega) N_0.symm⟩, rfl⟩
  refine ⟨t, flush0_5 t, ?_⟩
  rw [mem_block0]
  obtain ⟨-, -, -, -, -, -, -, -, -, -, e0, e1⟩ := block_index0 t
  intro d
  match d with
  | ⟨0, _⟩ =>
    show win0_5.index t (0 : Fin 2) * 5000 ≤ (i 0).val ∧ (i 0).val < win0_5.index t (0 : Fin 2) * 5000 + 5000
    rw [e0]; omega
  | ⟨1, _⟩ =>
    show win0_5.index t (1 : Fin 2) * 256 ≤ (i 1).val ∧ (i 1).val < win0_5.index t (1 : Fin 2) * 256 + 256
    rw [e1]; omega

end Layer1

/-- THE FIRST LAYER: after the ten points the output array is the layer of the five input arrays, clipped below at zero. -/
theorem region0 (c : Dev nD) (a x : Sage.Mat 50000 256) (wl wr : Sage.Mat 256 256) (b : Sage.Mat 1 256)
    (ha : V c main_v24 = a) (hx : V c main_arg0 = x) (hwl : V c main_arg3 = wl) (hb : V c main_v25 = b) (hwr : V c main_arg5 = wr) :
    (dat0 V c).arrAt 5 cfg0.N = ((fun i => max (Sage.layerSum a x wl wr b i) 0) : Sage.Mat 50000 256) :=
  (dat0 V c).arrAt_eq_of_cover 5 _ (fun t _ => Layer1.flushed0 V c a x wl wr b ha hx hwl hb hwr t) Layer1.cover0

end Cert.KernelIdeal.Regions

end
-- ==== Proof.Region1.lean ====
/-
  The second dense layer of the graph convolution, read off the ten row blocks the grid visits.

  At grid point t the body holds rows 5000 t … 5000 t + 4999 of the second mean array and of the first layer's
  output, the two 256 × 256 weight matrices whole and the bias row whole, and stores
      mean block · Wlᵀ + feature block · Wrᵀ + bias
  into the output's row block t; there is no clipping after this layer. Entry (p, q) of a block product against a
  transposed matrix is the sum over k of the block's (p, k) times the matrix's (q, k), so the stored block's entry
  (p, q) is entry (5000 t + p, q) of the layer of the five arrays. The ten row blocks tile the 50000 rows (row r lies
  in block r / 5000), so after the last point the output array is the layer everywhere.
-/
import proofs.«167765_j85134841741882_1_alg».proof.Proof.Gen.KernelIdeal.Frame
import proofs.«167765_j85134841741882_1_alg».proof.Proof.SageSpec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Layer2

/-! ## The product of a row block with a transposed weight matrix, entry by entry -/

/-- Left operand's row axis: the output's row. -/
theorem prod1_lhs_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Left operand's column axis: the summation index. -/
theorem prod1_lhs_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- Right operand's row axis: the summation index. -/
theorem prod1_rhs_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- Right operand's column axis: the output's column. -/
theorem prod1_rhs_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A transposed square matrix read at (k, q) is the matrix at (q, k). -/
theorem transpose1_apply {φ : FTy} (w : FVec Ideal S256x256 φ) (k q : Fin 256) :
    transpose S256x256 [1, 0] w transposes_S256x256_p1_0_S256x256 (ix2 k q) = w (ix2 q k) :=
  transpose_apply [1, 0] w transposes_S256x256_p1_0_S256x256 (ix2 k q) (ix2 q k) (fun b => match b with
    | ⟨0, _⟩ => rfl
    | ⟨1, _⟩ => rfl)

/-- A row block times the transpose of a weight matrix, accumulated from zero: entry (p, q) is the sum over k of
    the block's (p, k) times the weight's (q, k). -/
theorem prod1_apply {φ₁ φ₂ : FTy} (y : FVec Ideal S5000x256 φ₁) (w : FVec Ideal S256x256 φ₂) (p : Fin 5000) (q : Fin 256) :
    matmul dot_S5000x256_S256x256_S5000x256_1_0_0_1_n_n none y
        (transpose S256x256 [1, 0] w transposes_S256x256_p1_0_S256x256) (constant S5000x256 .f32 0x00000000#32) (ix2 p q)
      = ∑ k : Fin 256, y (ix2 p k) * w (ix2 q k) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact prod1_lhs_0 _ _
    | ⟨1, _⟩ => exact (prod1_lhs_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (prod1_rhs_0 _ _).trans hk
    | ⟨1, _⟩ => exact prod1_rhs_1 _ _)
  rw [el, er, transpose1_apply]

/-- The bias row broadcast down the rows, read at (p, q), is the row's entry q. -/
theorem bias1_apply (r : FVec Ideal S1x256 .f32) (p : Fin 5000) (q : Fin 256) :
    broadcastTo S5000x256 r broadcasts_S1x256_S5000x256 (ix2 p q) = r (ix2 0 q) :=
  broadcastTo_apply r broadcasts_S1x256_S5000x256 (ix2 p q) (ix2 0 q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])

/-- THE SECOND LAYER'S BLOCK AT AN ENTRY: the mean block's row p against row q of the left weights, plus the feature
    block's row p against row q of the right weights, plus the bias at q. -/
theorem layer1_block_apply (x0 x1 : Vec Ideal S5000x256 .f32) (x2 x4 : Vec Ideal S256x256 .f32) (x3 : Vec Ideal S1x256 .f32)
    (p : Fin 5000) (q : Fin 256) :
    k1_pay1 x0 x1 x2 x4 x3 (ix2 p q)
      = (∑ k : Fin 256, x0 (ix2 p k) * x2 (ix2 q k)) + (∑ k : Fin 256, x1 (ix2 p k) * x4 (ix2 q k)) + x3 (ix2 0 q) := by
  unfold k1_pay1
  rw [addf_apply, addf_apply, prod1_apply, prod1_apply, bias1_apply]
  simp only [truncf_apply, shapeCast_self]

/-! ## From the blocks to the arrays -/

theorem zero_offsets1 : (![0, 0] : Fin 2 → Nat) = fun _ => 0 := funext fun a => by fin_cases a <;> rfl

/-- The grid has ten points. -/
theorem point1_lt (t : Fin cfg1.N) : t.val < 10 := lt_of_lt_of_eq t.isLt N_1

/-- The second layer's block with its operands' entries named as entries of five arrays: when rows p of the two moving
    blocks are rows r of the mean and feature arrays and the weights and bias are read whole, entry (p, q) of the block
    is entry (r, q) of the layer. -/
theorem layer1_block_of_arrays (x0 x1 : Vec Ideal S5000x256 .f32) (x2 x4 : Vec Ideal S256x256 .f32) (x3 : Vec Ideal S1x256 .f32)
    (a x : Sage.Mat 50000 256) (wl wr : Sage.Mat 256 256) (b : Sage.Mat 1 256) (r : Fin 50000) (p : Fin 5000) (q : Fin 256)
    (h0 : ∀ k, x0 (ix2 p k) = a (ix2 r k)) (h1 : ∀ k, x1 (ix2 p k) = x (ix2 r k))
    (h2 : ∀ k, x2 (ix2 q k) = wl (ix2 q k)) (h4 : ∀ k, x4 (ix2 q k) = wr (ix2 q k)) (h3 : x3 (ix2 0 q) = b (ix2 0 q)) :
    k1_pay1 x0 x1 x2 x4 x3 (ix2 p q) = Sage.layerSum a x wl wr b (ix2 r q) := by
  rw [layer1_block_apply]
  show _ = (∑ k : Fin 256, a (ix2 r k) * wl (ix2 q k)) + (∑ k : Fin 256, x (ix2 r k) * wr (ix2 q k)) + b (ix2 0 q)
  have e0 : (∑ k : Fin 256, x0 (ix2 p k) * x2 (ix2 q k)) = ∑ k : Fin 256, a (ix2 r k) * wl (ix2 q k) :=
    Finset.sum_congr rfl fun k _ => by rw [h0 k, h2 k]
  have e1 : (∑ k : Fin 256, x1 (ix2 p k) * x4 (ix2 q k)) = ∑ k : Fin 256, x (ix2 r k) * wr (ix2 q k) :=
    Finset.sum_congr rfl fun k _ => by rw [h1 k, h4 k]
  rw [e0, e1, h3]

/-- The same at any index y of the block, for the block of point t: the array row is 5000 t + the row inside the block. -/
theorem layer1_block_rows (x0 x1 : Vec Ideal S5000x256 .f32) (x2 x4 : Vec Ideal S256x256 .f32) (x3 : Vec Ideal S1x256 .f32)
    (a x : Sage.Mat 50000 256) (wl wr : Sage.Mat 256 256) (b : Sage.Mat 1 256) (t : Fin cfg1.N)
    (h0 : ∀ (p : Fin 5000) (k : Fin 256), x0 (ix2 p k) = a (ix2 ⟨5000 * t.val + p.val, by have := point1_lt t; have := p.isLt; omega⟩ k))
    (h1 : ∀ (p : Fin 5000) (k : Fin 256), x1 (ix2 p k) = x (ix2 ⟨5000 * t.val + p.val, by have := point1_lt t; have := p.isLt; omega⟩ k))
    (h2 : ∀ q k : Fin 256, x2 (ix2 q k) = wl (ix2 q k)) (h4 : ∀ q k : Fin 256, x4 (ix2 q k) = wr (ix2 q k))
    (h3 : ∀ q : Fin 256, x3 (ix2 0 q) = b (ix2 0 q)) (y : S5000x256.Idx) :
    k1_pay1 x0 x1 x2 x4 x3 y
      = Sage.layerSum a x wl wr b (ix2 ⟨5000 * t.val + (y 0).val, by have := point1_lt t; have := idx2_lt0 y; omega⟩ ⟨(y 1).val, idx2_lt1 y⟩) := by
  obtain ⟨p, q, rfl⟩ : ∃ (p : Fin 5000) (q : Fin 256), y = ix2 p q := ⟨y 0, y 1, eq_ix2 y⟩
  exact layer1_block_of_arrays x0 x1 x2 x4 x3 a x wl wr b _ p q (h0 p) (h1 p) (h2 q) (h4 q) (h3 q)

/-- Where each window's block sits at point t, decided over the ten points: the mean, feature and output blocks are
    row block t; the two weight matrices and the bias row are taken whole. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean block at point t is rows 5000 t … 5000 t + 4999 of the mean array. -/
theorem mean_block1 (c : Dev nD) (a : Sage.Mat 50000 256) (ha : V c main_v38 = a) (t : Fin cfg1.N) (p : Fin 5000) (k : Fin 256) :
    (iblk1 V c 0 t : Vec Ideal S5000x256 .f32) (ix2 p k)
      = a (ix2 ⟨5000 * t.val + p.val, by have := point1_lt t; have := p.isLt; omega⟩ k) := by
  show V c main_v38 (((cfg1.win 0).blk t).view.emb _) = _
  rw [ha]
  refine congrArg a (funext fun d => Fin.ext ?_)
  match d with
  | ⟨0, _⟩ =>
    show win1_0.index t (0 : Fin 2) * 5000 + 1 * p.val = 5000 * t.val + p.val
    rw [(block_index1 t).1]; omega
  | ⟨1, _⟩ =>
    show win1_0.index t (1 : Fin 2) * 256 + 1 * k.val = k.val
    rw [(block_index1 t).2.1]; omega

/-- The feature block at point t is the same rows of the feature array. -/
theorem feature_block1 (c : Dev nD) (x : Sage.Mat 50000 256) (hx : V c main_v26 = x) (t : Fin cfg1.N) (p : Fin 5000) (k : Fin 256) :
    (iblk1 V c 1 t : Vec Ideal S5000x256 .f32) (ix2 p k)
      = x (ix2 ⟨5000 * t.val + p.val, by have := point1_lt t; have := p.isLt; omega⟩ k) := by
  show V c main_v26 (((cfg1.win 1).blk t).view.emb _) = _
  rw [hx]
  refine congrArg x (funext fun d => Fin.ext ?_)
  match d with
  | ⟨0, _⟩ =>
    show win1_1.index t (0 : Fin 2) * 5000 + 1 * p.val = 5000 * t.val + p.val
    rw [(block_index1 t).2.2.1]; omega
  | ⟨1, _⟩ =>
    show win1_1.index t (1 : Fin 2) * 256 + 1 * k.val = k.val
    rw [(block_index1 t).2.2.2.1]; omega

/-- The left weights' block is the whole matrix at every point. -/
theorem left_weights_block1 (c : Dev nD) (wl : Sage.Mat 256 256) (hwl : V c main_arg6 = wl) (t : Fin cfg1.N) (q k : Fin 256) :
    (iblk1 V c 2 t : Vec Ideal S256x256 .f32) (ix2 q k) = wl (ix2 q k) := by
  show V c main_arg6 (((cfg1.win 2).blk t).view.emb _) = _
  rw [hwl]
  refine congrArg wl (funext fun d => Fin.ext ?_)
  match d with
  | ⟨0, _⟩ =>
    show win1_2.index t (0 : Fin 2) * 256 + 1 * q.val = q.val
    rw [(block_index1 t).2.2.2.2.1]; omega
  | ⟨1, _⟩ =>
    show win1_2.index t (1 : Fin 2) * 256 + 1 * k.val = k.val
    rw [(block_index1 t).2.2.2.2.2.1]; omega

/-- The bias row's block is the whole row at every point. -/
theorem bias_block1 (c : Dev nD) (b : Sage.Mat 1 256) (hb : V c main_v39 = b) (t : Fin cfg1.N) (q : Fin 256) :
    (iblk1 V c 3 t : Vec Ideal S1x256 .f32) (ix2 0 q) = b (ix2 0 q) := by
  show V c main_v39 (((cfg1.win 3).blk t).view.emb _) = _
  rw [hb]
  refine congrArg b (funext fun d => Fin.ext ?_)
  match d with
  | ⟨0, _⟩ =>
    show win1_3.index t (0 : Fin 2) * 1 + 1 * 0 = 0
    rw [(block_index1 t).2.2.2.2.2.2.1]
  | ⟨1, _⟩ =>
    show win1_3.index t (1 : Fin 2) * 256 + 1 * q.val = q.val
    rw [(block_index1 t).2.2.2.2.2.2.2.1]; omega

/-- The right weights' block is the whole matrix at every point. -/
theorem right_weights_block1 (c : Dev nD) (wr : Sage.Mat 256 256) (hwr : V c main_arg8 = wr) (t : Fin cfg1.N) (q k : Fin 256) :
    (iblk1 V c 4 t : Vec Ideal S256x256 .f32) (ix2 q k) = wr (ix2 q k) := by
  show V c main_arg8 (((cfg1.win 4).blk t).view.emb _) = _
  rw [hwr]
  refine congrArg wr (funext fun d => Fin.ext ?_)
  match d with
  | ⟨0, _⟩ =>
    show win1_4.index t (0 : Fin 2) * 256 + 1 * q.val = q.val
    rw [(block_index1 t).2.2.2.2.2.2.2.2.1]; omega
  | ⟨1, _⟩ =>
    show win1_4.index t (1 : Fin 2) * 256 + 1 * k.val = k.val
    rw [(block_index1 t).2.2.2.2.2.2.2.2.2.1]; omega

/-- WHAT POINT t WRITES BACK is row block t of the layer of the five arrays. -/
theorem flushed1 (c : Dev nD) (a x : Sage.Mat 50000 256) (wl wr : Sage.Mat 256 256) (b : Sage.Mat 1 256)
    (ha : V c main_v38 = a) (hx : V c main_v26 = x) (hwl : V c main_arg6 = wl) (hb : V c main_v39 = b) (hwr : V c main_arg8 = wr)
    (t : Fin cfg1.N) :
    (dat1 V c).flushed 5 t
      = ((cfg1.win 5).blk t).view.read (Elt Ideal) (Sage.layerSum a x wl wr b) := by
  show (cfg1.win 5).cut (grid1.coords t) ((dat1 V c).after 5 t) = _
  rw [after1_5]
  unfold out1_5
  rw [View.canon_unit_zero zero_offsets1]
  simp only [View.ld_unit_zero (S := S5000x256) zero_offsets1, View.ld_unit_zero (S := S256x256) zero_offsets1, View.ld_unit_zero (S := S1x256) zero_offsets1]
  funext y
  show k1_pay1 (iblk1 V c 0 t) (iblk1 V c 1 t) (iblk1 V c 2 t) (iblk1 V c 4 t) (iblk1 V c 3 t) y
    = Sage.layerSum a x wl wr b (((cfg1.win 5).blk t).view.emb y)
  refine (layer1_block_rows (iblk1 V c 0 t) (iblk1 V c 1 t) (iblk1 V c 2 t) (iblk1 V c 4 t) (iblk1 V c 3 t) a x wl wr b t
    (mean_block1 V c a ha t) (feature_block1 V c x hx t) (left_weights_block1 V c wl hwl t) (right_weights_block1 V c wr hwr t)
    (bias_block1 V c b hb t) y).trans ?_
  refine congrArg (Sage.layerSum a x wl wr b) (funext fun d => Fin.ext ?_)
  match d with
  | ⟨0, _⟩ =>
    show 5000 * t.val + (y 0).val = win1_5.index t (0 : Fin 2) * 5000 + 1 * (y 0).val
    rw [(block_index1 t).2.2.2.2.2.2.2.2.2.2.1]; omega
  | ⟨1, _⟩ =>
    show (y 1).val = win1_5.index t (1 : Fin 2) * 256 + 1 * (y 1).val
    rw [(block_index1 t).2.2.2.2.2.2.2.2.2.2.2]; omega

/-- An index of the output array is in point t's block iff each coordinate is in the block's range on its axis. -/
theorem mem_block1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v40).slice (win1_5.rect t)).set ↔ _
  rw [View.set_slice_whole, Rect.mem_set_unit]
  exact Iff.rfl

/-- Every index of the output array is in some point's block: row r is in the block of point r / 5000. -/
theorem cover1 (i : S50000x256.Idx) : ∃ t : Fin cfg1.N, (cfg1.win 5).flush t = true ∧ i ∈ ((cfg1.win 5).blk t).view.set := by
  have hi0 : (i 0).val < 50000 := idx2_lt0 i
  have hi1 : (i 1).val < 256 := idx2_lt1 i
  obtain ⟨t, ht⟩ : ∃ t : Fin cfg1.N, t.val = (i 0).val / 5000 := ⟨⟨(i 0).val / 5000, lt_of_lt_of_eq (by omega) N_1.symm⟩, rfl⟩
  refine ⟨t, flush1_5 t, ?_⟩
  rw [mem_block1]
  obtain ⟨-, -, -, -, -, -, -, -, -, -, e0, e1⟩ := block_index1 t
  intro d
  match d with
  | ⟨0, _⟩ =>
    show win1_5.index t (0 : Fin 2) * 5000 ≤ (i 0).val ∧ (i 0).val < win1_5.index t (0 : Fin 2) * 5000 + 5000
    rw [e0]; omega
  | ⟨1, _⟩ =>
    show win1_5.index t (1 : Fin 2) * 256 ≤ (i 1).val ∧ (i 1).val < win1_5.index t (1 : Fin 2) * 256 + 256
    rw [e1]; omega

end Layer2

/-- THE SECOND LAYER: after the ten points the output array is the layer of the five input arrays. -/
theorem region1 (c : Dev nD) (a x : Sage.Mat 50000 256) (wl wr : Sage.Mat 256 256) (b : Sage.Mat 1 256)
    (ha : V c main_v38 = a) (hx : V c main_v26 = x) (hwl : V c main_arg6 = wl) (hb : V c main_v39 = b) (hwr : V c main_arg8 = wr) :
    (dat1 V c).arrAt 5 cfg1.N = Sage.layerSum a x wl wr b :=
  (dat1 V c).arrAt_eq_of_cover 5 _ (fun t _ => Layer2.flushed1 V c a x wl wr b ha hx hwl hb hwr t) Layer2.cover1

end Cert.KernelIdeal.Regions

end
-- ==== Proof.Region2.lean ====
/-
  The third region of the kernel program: the dot product of every row of a 50000 × 256 feature array `h` with one
  picked row `r` (1 × 256), kept as a 50000 × 1 column,
      out (i, 0) = Σ_d h (i, d) · r (0, d)        (`Sage.logitsOf h r`).
  The region walks ten grid points. At point `t` it sees rows 5000·t … 5000·t + 4999 of `h` as a 5000 × 256 block and the
  whole row `r`, multiplies the block by the row broadcast down its 5000 rows, sums the products along the 256 lanes and
  stores the 5000 sums as block `t` of the output column.

  Two steps. First, one entry of what the body stores: entry (p, 0) is Σ_d x0 (p, d) · x1 (0, d) for any block `x0` and
  row `x1` (`Logits.payload`). Second, from the blocks to the array: what point `t` writes back is block `t` of
  `Sage.logitsOf h r` — entry (p, 0) of the moving block is array row 5000·t + p, and the picked row's block is the row
  itself — (`Logits.flushed`), and the ten blocks cover the column: row `i` lies in the block of point `i / 5000`
  (`Logits.blocks_cover`). So the column ends holding `Sage.logitsOf h r`, whatever the arrays hold at the region's entry.
-/
import proofs.«167765_j85134841741882_1_alg».proof.Proof.Gen.KernelIdeal.Frame
import proofs.«167765_j85134841741882_1_alg».proof.Proof.SageSpec
import Idealize.ShloMosaic.Lib.ValueIdx
import Idealize.ShloMosaic.Lib.Pipeline.Value
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

namespace Logits

/-! ## One entry of the stored column -/

/-- Entry (p, 0) of the body's stored column is the lane sum of row `p` of the moving block against the picked row.
    The two same-shape casts are the identity, the picked row is broadcast down the 5000 rows, the products are
    summed along the 256 lanes, and the vector of 5000 sums is kept as a 5000 × 1 column. -/
theorem payload (x0 : Vec Ideal S5000x256 .f32) (x1 : Vec Ideal S1x256 .f32) (p : Fin 5000) :
    k2_pay1 x0 x1 (ix2 p (0 : Fin 1)) = ∑ d : Fin 256, x0 (ix2 p d) * x1 (ix2 (0 : Fin 1) d) := by
  unfold k2_pay1
  -- the 5000 sums viewed as a 5000 × 1 column: entry (p, 0) sits at row-major position p, as entry p of the vector does
  refine (shapeCast_apply _ _ (ix2 p (0 : Fin 1)) (ix1 p) ?_).trans ?_
  · rw [Shape.rowMajor_val_one, Shape.rowMajor_val_two]
    show p.val = p.val * 1 + 0
    omega
  -- the reduction along the lanes is the sum over the lane coordinate
  refine (Ideal.multiReduction_add_single _ _ _ _ _ (ix1 p)).trans ?_
  refine Finset.sum_congr rfl fun (d : Fin 256) _ => ?_
  -- row p with lane d put back is the index (p, d)
  have hl : reduces_S5000x256_S5000.lift (ix1 p) d = ix2 p d := by
    funext a
    apply Fin.ext
    match a with
    | ⟨0, _⟩ => rfl
    | ⟨1, _⟩ => rfl
  refine (congrArg _ hl).trans ?_
  refine (mulf_apply _ _ _).trans ?_
  rw [shapeCast_self, shapeCast_self]
  refine congrArg (x0 (ix2 p d) * ·) ?_
  -- the broadcast row at (p, d) is the row at (0, d)
  refine broadcastTo_apply x1 _ (ix2 p d) (ix2 (0 : Fin 1) d) fun a => ?_
  match a with
  | ⟨0, _⟩ => rfl
  | ⟨1, _⟩ =>
    show d.val = if (256 : Nat) = 1 then 0 else d.val
    rw [if_neg (by decide)]

/-! ## From the blocks to the array -/

/-- The body reads and writes its blocks from their corners. -/
theorem zero_offsets : (![0, 0] : Fin 2 → Nat) = fun _ => 0 := funext fun a => by fin_cases a <;> rfl

/-- The block indices at grid point `t`, decided over the ten points: the moving block of `h` and the output block are
    block (t, 0) of their arrays, the picked row's block is block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, d) of the moving block at point `t` is entry (5000·t + p, d) of `h`: a block's coordinate is the block
    index times the block size plus the coordinate inside the block. -/
theorem rows_block_apply (c : Dev nD) (h : Sage.Mat 50000 256) (hh : V c main_v40 = h) (t : Fin cfg2.N)
    (p : Fin 5000) (d : Fin 256) (k : Fin 50000) (hk : k.val = 5000 * t.val + p.val) :
    iblk2 V c 0 t (ix2 p d) = h (ix2 k d) := by
  obtain ⟨e0, e1, -, -, -, -⟩ := block_indices t
  show V c main_v40 (((cfg2.win 0).blk t).view.emb (ix2 p d)) = _
  rw [hh]
  refine congrArg h (funext fun a => Fin.ext ?_)
  match a with
  | ⟨0, _⟩ => show win2_0.index t (0 : Fin 2) * 5000 + 1 * p.val = k.val; omega
  | ⟨1, _⟩ => show win2_0.index t (1 : Fin 2) * 256 + 1 * d.val = d.val; omega

/-- The picked row's block is the row itself at every point. -/
theorem picked_row_block_apply (c : Dev nD) (r : Sage.Mat 1 256) (hr : V c main_v47 = r) (t : Fin cfg2.N) (d : Fin 256) :
    iblk2 V c 1 t (ix2 (0 : Fin 1) d) = r (ix2 (0 : Fin 1) d) := by
  obtain ⟨-, -, e2, e3, -, -⟩ := block_indices t
  show V c main_v47 (((cfg2.win 1).blk t).view.emb (ix2 (0 : Fin 1) d)) = _
  rw [hr]
  refine congrArg r (funext fun a => Fin.ext ?_)
  match a with
  | ⟨0, _⟩ => show win2_1.index t (0 : Fin 2) * 1 + 1 * 0 = 0; omega
  | ⟨1, _⟩ => show win2_1.index t (1 : Fin 2) * 256 + 1 * d.val = d.val; omega

/-- What point `t` writes back is block `t` of the column of dot products: entry (p, 0) of the written block is the
    lane sum of row `p` of the moving block against the picked row, which is row 5000·t + p of `h` against `r`. -/
theorem flushed (c : Dev nD) (h : Sage.Mat 50000 256) (r : Sage.Mat 1 256)
    (hh : V c main_v40 = h) (hr : V c main_v47 = r) (t : Fin cfg2.N) :
    (dat2 V c).flushed 2 t = ((cfg2.win 2).blk t).view.read (Elt Ideal) (Sage.logitsOf h r) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S1x256) zero_offsets]
  funext y
  obtain ⟨p, u, rfl⟩ : ∃ (p : Fin 5000) (u : Fin 1), y = ix2 p u := ⟨y 0, y 1, eq_ix2 (n0 := 5000) (n1 := 1) y⟩
  obtain rfl : u = 0 := Fin.ext (by omega)
  obtain ⟨-, -, -, -, e4, e5⟩ := block_indices t
  show k2_pay1 (iblk2 V c 0 t) (iblk2 V c 1 t) (ix2 p (0 : Fin 1))
    = Sage.logitsOf h r (((cfg2.win 2).blk t).view.emb (ix2 p (0 : Fin 1)))
  refine (payload (iblk2 V c 0 t) (iblk2 V c 1 t) p).trans ?_
  unfold Sage.logitsOf
  refine Finset.sum_congr rfl fun d _ => ?_
  refine congrArg₂ (· * ·) (rows_block_apply V c h hh t p d _ ?_) (picked_row_block_apply V c r hr t d)
  -- the output block's row p is array row 5000·t + p
  show win2_2.index t (0 : Fin 2) * 5000 + 1 * p.val = 5000 * t.val + p.val
  omega

/-- An index of the column is in point `t`'s block iff each coordinate is in the block's range on its axis. -/
theorem mem_block (t : Fin cfg2.N) (i : S50000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v48).slice (win2_2.rect t)).set ↔ _
  rw [View.set_slice_whole, Rect.mem_set_unit]
  exact Iff.rfl

/-- The ten blocks cover the column: row `i` lies in the block of point `i / 5000`. -/
theorem blocks_cover (i : S50000x1.Idx) :
    ∃ t : Fin cfg2.N, (cfg2.win 2).flush t = true ∧ i ∈ ((cfg2.win 2).blk t).view.set := by
  have hi0 : (i 0).val < 50000 := (i 0).isLt
  have hi1 : (i 1).val < 1 := (i 1).isLt
  have hN : cfg2.N = 10 := N_2
  have hq : (i 0).val / 5000 < cfg2.N := by rw [hN]; omega
  obtain ⟨-, -, -, -, e4, e5⟩ := block_indices ⟨(i 0).val / 5000, hq⟩
  have e4' : win2_2.index ⟨(i 0).val / 5000, hq⟩ (0 : Fin 2) = (i 0).val / 5000 := e4
  refine ⟨⟨(i 0).val / 5000, hq⟩, flush2_2 _, ?_⟩
  rw [mem_block]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    omega
  | ⟨1, _⟩ =>
    show win2_2.index ⟨(i 0).val / 5000, hq⟩ (1 : Fin 2) * 1 ≤ (i 1).val
      ∧ (i 1).val < win2_2.index ⟨(i 0).val / 5000, hq⟩ (1 : Fin 2) * 1 + 1
    omega

end Logits

/-- After the third region the output column holds the dot product of every row of `h` with the picked row `r`,
    whatever the arrays hold at the region's entry. -/
theorem region2 (c : Dev nD) (h : Sage.Mat 50000 256) (r : Sage.Mat 1 256)
    (hh : V c main_v40 = h) (hr : V c main_v47 = r) :
    (dat2 V c).arrAt 2 cfg2.N = Sage.logitsOf h r :=
  (dat2 V c).arrAt_eq_of_cover 2 (Sage.logitsOf h r) (fun t _ => Logits.flushed V c h r hh hr t) Logits.blocks_cover

end Cert.KernelIdeal.Regions

end
-- ==== Proof.RefStages.lean ====
import proofs.«167765_j85134841741882_1_alg».proof.Proof.Gen.ReferenceIdeal.Read
import proofs.«167765_j85134841741882_1_alg».proof.Proof.SageSpec
import proofs.«167765_j85134841741882_1_alg».proof.Proof.SageConsts
import Idealize.ShloMosaic.Lib.ValueIdx
import Idealize.ShloMosaic.PureOps.Ideal.Laws

/-
  The reference program stage by stage, over the extended reals.

  Layer one: the aggregated neighbour sum divided by the clamped in-degree (a number that is at least one, so the
  quotient is the product with the reciprocal), then the two products against the transposed weights with the bias
  added between them (the same number as adding it last), then the maximum with zero. Layer two: the same over the
  first layer's output, without the maximum. The logits: every row's dot product with the picked row (the reference
  multiplies the picked row on the left; multiplication commutes). What follows the logits, the softmax, is one
  function of them and is carried whole.
-/

noncomputable section

open scoped BigOperators

namespace Cert.ReferenceIdeal.Stages

open Cert.ReferenceIdeal Cert.ReferenceIdeal.Gen Cert.ReferenceIdeal.Read Idealize.ShloMosaic Idealize.ShloMosaic.TcCoe Idealize.SL.Sem Idealize.ShloMosaic.ValueIdx

variable (x0 : (⟨S50000x256, .f32⟩ : BufTy).Contents (Elt Ideal)) (x1 : (⟨S2x800000, .i32⟩ : BufTy).Contents (Elt Ideal))
  (x2 : (⟨S1, .i32⟩ : BufTy).Contents (Elt Ideal)) (x3 : (⟨S256x256, .f32⟩ : BufTy).Contents (Elt Ideal))
  (x4 : (⟨S256, .f32⟩ : BufTy).Contents (Elt Ideal)) (x5 x6 : (⟨S256x256, .f32⟩ : BufTy).Contents (Elt Ideal))
  (x7 : (⟨S256, .f32⟩ : BufTy).Contents (Elt Ideal)) (x8 : (⟨S256x256, .f32⟩ : BufTy).Contents (Elt Ideal))

/-- The exponentials of the logits shifted by their maximum (the maximum taken from minus infinity and clamped
    below by minus infinity once more, as the reference spells it). -/
def shiftedExp (z : (⟨S50000, .f32⟩ : BufTy).Contents (Elt Ideal)) : (⟨S50000, .f32⟩ : BufTy).Contents (Elt Ideal) :=
  Host.exp (F := Ideal) (φ := .f32) (subf (F := Ideal) (φ := .f32) z
    (broadcastInDim S50000 ![0] bcast_S1_S50000_0
      (broadcastInDim S1 ![] bcast_S_S1
        (maximumf (F := Ideal) (φ := .f32) (val_main_cst_14 (F := Ideal))
          (Host.reduce (FloatOps.maximumf (F := Ideal) (φ := .f32)) z (val_main_cst_13 (F := Ideal)) reducesTo_S50000_S_d0 h_S_)))))

/-- The shared tail: a softmax over the 50000 logits. -/
def softmaxTail (z : (⟨S50000, .f32⟩ : BufTy).Contents (Elt Ideal)) : (⟨S50000, .f32⟩ : BufTy).Contents (Elt Ideal) :=
  Host.divf (F := Ideal) (φ := .f32) (shiftedExp z)
    (broadcastInDim S50000 ![0] bcast_S1_S50000_0
      (broadcastInDim S1 ![] bcast_S_S1
        (Host.reduceAdd (F := Ideal) (φ := .f32) (shiftedExp z) (val_main_cst_15 (F := Ideal)) reducesTo_S50000_S_d0 h_S_)))

/-- A bias vector as the one-row matrix the kernel's window holds. -/
abbrev biasRow (b : (⟨S256, .f32⟩ : BufTy).Contents (Elt Ideal)) : Sage.Mat 1 256 := fun j => b (ix1 (j 1))

theorem degree_ge_one (j : S50000.Idx) : (1 : EReal) ≤ val_main_v19 (F := Ideal) x1 j := by
  rw [val_main_v19_apply, val_main_v18_apply, val_main_cst_3_apply, Ideal.maximumf_def, Ideal.ofBits_def, Sage.ofBits_one]
  exact le_max_right _ _

theorem mean1_eq :
    val_main_v22 (F := Ideal) x0 x1
      = ((fun i => val_main_v13 (F := Ideal) x0 x1 i * Ideal.div 1 (val_main_v19 (F := Ideal) x1 (ix1 (i 0)))) : Sage.Mat 50000 256) := by
  funext i
  have e : idx_main_v20 (idx_main_v21 i) = ix1 (i 0) := funext fun a => Fin.ext (by match a with | ⟨0, _⟩ => rfl)
  rw [val_main_v22_apply, val_main_v21_apply, val_main_v20_apply, e, Ideal.hostDivf_def]
  exact (Sage.mul_recip_eq_div _ _ (degree_ge_one x1 _)).symm

theorem hidden1_eq :
    val_main_v31 (F := Ideal) x0 x1 x3 x4 x5
      = ((fun i => max (Sage.layerSum (val_main_v22 (F := Ideal) x0 x1) x0 x3 x5 (biasRow x4) i) 0) : Sage.Mat 50000 256) := by
  funext i
  have el : ∀ k : Fin 256, lidx_main_v24 i k = ix2 (i 0) k := fun k =>
    funext fun a => Fin.ext (by match a with | ⟨0, _⟩ => rfl | ⟨1, _⟩ => rfl)
  have er : ∀ k : Fin 256, idx_main_v23 (ridx_main_v24 i k) = ix2 (i 1) k := fun k =>
    funext fun a => Fin.ext (by match a with | ⟨0, _⟩ => rfl | ⟨1, _⟩ => rfl)
  have eb : idx_main_v25 (idx_main_v26 i) = ix1 (i 1) := funext fun a => Fin.ext (by match a with | ⟨0, _⟩ => rfl)
  have el' : ∀ k : Fin 256, lidx_main_v29 i k = ix2 (i 0) k := fun k =>
    funext fun a => Fin.ext (by match a with | ⟨0, _⟩ => rfl | ⟨1, _⟩ => rfl)
  have er' : ∀ k : Fin 256, idx_main_v28 (ridx_main_v29 i k) = ix2 (i 1) k := fun k =>
    funext fun a => Fin.ext (by match a with | ⟨0, _⟩ => rfl | ⟨1, _⟩ => rfl)
  rw [val_main_v31_apply, val_main_v30_apply, val_main_v27_apply, val_main_v24_apply, val_main_v26_apply,
    val_main_v25_apply, val_main_v29_apply, val_main_call0_v0_apply, val_main_call0_cst_apply, eb]
  simp only [val_main_v23_apply, val_main_v28_apply, el, er, el', er', Ideal.maximumf_def, Ideal.addf_def,
    Ideal.ofBits_def, Ideal.ofBits_zero_f32]
  unfold Sage.layerSum
  exact congrArg (fun t => max t 0) (Sage.add_bias_last _ _ _)

theorem mean2_eq :
    val_main_v50 (F := Ideal) x0 x1 x3 x4 x5
      = ((fun i => val_main_v13 (F := Ideal) (val_main_v31 (F := Ideal) x0 x1 x3 x4 x5) x1 i * Ideal.div 1 (val_main_v19 (F := Ideal) x1 (ix1 (i 0)))) : Sage.Mat 50000 256) := by
  have h41 : val_main_v41 (F := Ideal) x0 x1 x3 x4 x5
      = val_main_v13 (F := Ideal) (val_main_v31 (F := Ideal) x0 x1 x3 x4 x5) x1 := by
    unfold val_main_v41 val_main_v38
    generalize val_main_v31 (F := Ideal) x0 x1 x3 x4 x5 = y
    rfl
  have h47 : val_main_v47 (F := Ideal) x1 = val_main_v19 (F := Ideal) x1 := rfl
  funext i
  have e : idx_main_v48 (idx_main_v49 i) = ix1 (i 0) := funext fun a => Fin.ext (by match a with | ⟨0, _⟩ => rfl)
  rw [val_main_v50_apply, val_main_v49_apply, val_main_v48_apply, e, h41, h47, Ideal.hostDivf_def]
  exact (Sage.mul_recip_eq_div _ _ (degree_ge_one x1 _)).symm

theorem hidden2_eq :
    val_main_v58 (F := Ideal) x0 x1 x3 x4 x5 x6 x7 x8
      = Sage.layerSum (val_main_v50 (F := Ideal) x0 x1 x3 x4 x5) (val_main_v31 (F := Ideal) x0 x1 x3 x4 x5) x6 x8 (biasRow x7) := by
  funext i
  have el : ∀ k : Fin 256, lidx_main_v52 i k = ix2 (i 0) k := fun k =>
    funext fun a => Fin.ext (by match a with | ⟨0, _⟩ => rfl | ⟨1, _⟩ => rfl)
  have er : ∀ k : Fin 256, idx_main_v51 (ridx_main_v52 i k) = ix2 (i 1) k := fun k =>
    funext fun a => Fin.ext (by match a with | ⟨0, _⟩ => rfl | ⟨1, _⟩ => rfl)
  have eb : idx_main_v53 (idx_main_v54 i) = ix1 (i 1) := funext fun a => Fin.ext (by match a with | ⟨0, _⟩ => rfl)
  have el' : ∀ k : Fin 256, lidx_main_v57 i k = ix2 (i 0) k := fun k =>
    funext fun a => Fin.ext (by match a with | ⟨0, _⟩ => rfl | ⟨1, _⟩ => rfl)
  have er' : ∀ k : Fin 256, idx_main_v56 (ridx_main_v57 i k) = ix2 (i 1) k := fun k =>
    funext fun a => Fin.ext (by match a with | ⟨0, _⟩ => rfl | ⟨1, _⟩ => rfl)
  rw [val_main_v58_apply, val_main_v55_apply, val_main_v52_apply, val_main_v54_apply, val_main_v53_apply,
    val_main_v57_apply, eb]
  simp only [val_main_v51_apply, val_main_v56_apply, el, er, el', er', Ideal.addf_def]
  unfold Sage.layerSum
  exact Sage.add_bias_last _ _ _

/-- The logits of the row `p`, written out. -/
theorem logitsOf_at (h : Sage.Mat 50000 256) (r : Sage.Mat 1 256) (p : Fin 50000) :
    Sage.logitsOf h r (ix2 p 0) = ∑ d : Fin 256, h (ix2 p d) * r (ix2 0 d) := rfl

theorem logits_eq :
    val_main_v68 (F := Ideal) x0 x1 x2 x3 x4 x5 x6 x7 x8
      = fun i : S50000.Idx => Sage.logitsOf (val_main_v58 (F := Ideal) x0 x1 x3 x4 x5 x6 x7 x8) (val_main_v65 (F := Ideal) x0 x1 x2 x3 x4 x5 x6 x7 x8) (ix2 (i 0) 0) := by
  funext i
  have e1 : ∀ k : Fin 256, idx_main_v68 i k = ix2 (i 0) k := fun k =>
    funext fun a => Fin.ext (by match a with | ⟨0, _⟩ => rfl | ⟨1, _⟩ => rfl)
  have e2 : ∀ k : Fin 256, idx_main_v66 (ix2 (i 0) k) = ix2 0 k := fun k =>
    funext fun a => Fin.ext (by match a with | ⟨0, _⟩ => rfl | ⟨1, _⟩ => rfl)
  rw [val_main_v68_apply, val_main_cst_12_apply, Ideal.ofBits_def, Ideal.ofBits_zero_f32, zero_add]
  refine Eq.trans ?_ (logitsOf_at _ _ (i 0)).symm
  refine Finset.sum_congr rfl fun k _ => ?_
  rw [val_main_v67_apply, val_main_v66_apply, Ideal.mulf_def, e1, e2, mul_comm]
  rfl

theorem result_eq_tail :
    val_main_v78 (F := Ideal) x0 x1 x2 x3 x4 x5 x6 x7 x8 = softmaxTail (val_main_v68 (F := Ideal) x0 x1 x2 x3 x4 x5 x6 x7 x8) := by
  unfold val_main_v78 val_main_v77 val_main_v76 val_main_v75 val_main_v74 val_main_v73 val_main_v72 val_main_v71
    val_main_v70 val_main_v69 softmaxTail shiftedExp
  rfl

end Cert.ReferenceIdeal.Stages

end
-- ==== Proof.KernelChain.lean ====
/-
  THE KERNEL PROGRAM'S RESULT, READ OFF THE FOLD THROUGH @main.

  The generated frame names the buffer contents at every segment boundary of @main: after a stretch of host
  operations the operations' composed term of what was there before, after a region each of its arrays at what its
  write-backs leave. This module walks that fold from the launch to the return and finds, at each boundary, the
  reference's own stage in the buffer that matters:
    * before region 0, window 0's array is (neighbour sum) × (1 / clamped degree) — the reference's mean, since off
      zero the quotient is the product with the inverse;
    * region 0 leaves max (mean · Wlᵀ + x · Wrᵀ + b) 0 — the reference's first hidden layer;
    * the host stretch before region 1 aggregates that layer the same way, region 1 leaves the second layer;
    * the host stretch before region 2 gathers the picked row with the same normalised index; region 2 leaves every
      row's dot product with it; the last stretch recasts the column as a vector and applies the shared softmax.
  The gathers, the scatter-adds and the softmax are the same operations in both programs and are never opened.
-/
import proofs.«167765_j85134841741882_1_alg».proof.Proof.Gen.KernelIdeal.Frame
import proofs.«167765_j85134841741882_1_alg».proof.Proof.Gen.ReferenceIdeal.Read
import proofs.«167765_j85134841741882_1_alg».proof.Proof.SageSpec
import proofs.«167765_j85134841741882_1_alg».proof.Proof.SageConsts
import proofs.«167765_j85134841741882_1_alg».proof.Proof.LibColumnCast
import proofs.«167765_j85134841741882_1_alg».proof.Proof.Region0
import proofs.«167765_j85134841741882_1_alg».proof.Proof.Region1
import proofs.«167765_j85134841741882_1_alg».proof.Proof.Region2
import proofs.«167765_j85134841741882_1_alg».proof.Proof.RefStages
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Chain

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg) (c : Dev nD)

/-- The launch contents of the argument arrays, at the literal types the reference's stages take. -/
abbrev a0 : (⟨Cert.ReferenceIdeal.S50000x256, .f32⟩ : BufTy).Contents (Elt Ideal) := m ((c : Thread nD τ).loc main_arg0)
abbrev a1 : (⟨Cert.ReferenceIdeal.S2x800000, .i32⟩ : BufTy).Contents (Elt Ideal) := m ((c : Thread nD τ).loc main_arg1)
abbrev a2 : (⟨Cert.ReferenceIdeal.S1, .i32⟩ : BufTy).Contents (Elt Ideal) := m ((c : Thread nD τ).loc main_arg2)
abbrev a3 : (⟨Cert.ReferenceIdeal.S256x256, .f32⟩ : BufTy).Contents (Elt Ideal) := m ((c : Thread nD τ).loc main_arg3)
abbrev a4 : (⟨Cert.ReferenceIdeal.S256, .f32⟩ : BufTy).Contents (Elt Ideal) := m ((c : Thread nD τ).loc main_arg4)
abbrev a5 : (⟨Cert.ReferenceIdeal.S256x256, .f32⟩ : BufTy).Contents (Elt Ideal) := m ((c : Thread nD τ).loc main_arg5)
abbrev a6 : (⟨Cert.ReferenceIdeal.S256x256, .f32⟩ : BufTy).Contents (Elt Ideal) := m ((c : Thread nD τ).loc main_arg6)
abbrev a7 : (⟨Cert.ReferenceIdeal.S256, .f32⟩ : BufTy).Contents (Elt Ideal) := m ((c : Thread nD τ).loc main_arg7)
abbrev a8 : (⟨Cert.ReferenceIdeal.S256x256, .f32⟩ : BufTy).Contents (Elt Ideal) := m ((c : Thread nD τ).loc main_arg8)

/-- A vector over the rows, broadcast to a column and then across the columns, read at an index: the row's entry. -/
theorem col_bcast_apply (y : (⟨S50000, .f32⟩ : BufTy).Contents (Elt Ideal)) (i : S50000x256.Idx) :
    broadcastInDim S50000x256 ![0, 1] bcast_S50000x1_S50000x256_0_1 (broadcastInDim S50000x1 ![0] bcast_S50000_S50000x1_0 y) i
      = y (ix1 (i 0)) := by
  refine (broadcastInDim_apply _ bcast_S50000x1_S50000x256_0_1 _ i (ix2 (i 0) 0) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 y (ix2 (i 0) 0) (ix1 (i 0)) (fun a => match a with
    | ⟨0, _⟩ => by show (i 0).val = if (50000 : Nat) = 1 then 0 else (i 0).val; rw [if_neg (by decide)])

/-- The reciprocal of the clamped in-degree, as the kernel's host code computes it, at a row. -/
theorem recip_apply (y : (⟨S50000, .f32⟩ : BufTy).Contents (Elt Ideal)) (j : S50000.Idx) :
    Host.divf (F := Ideal) (broadcastInDim S50000 ![] bcast_S_S50000 (constant (F := Ideal) S_ .f32 0x3F800000#32)) y j = Ideal.div 1 (y j) := by
  show Ideal.div (broadcastInDim S50000 ![] bcast_S_S50000 (constant (F := Ideal) S_ .f32 0x3F800000#32) j) (y j) = _
  rw [broadcastInDim_apply _ bcast_S_S50000 _ j ix0 (fun a => a.elim0)]
  show Ideal.div (Ideal.ofBits .f32 0x3F800000#32) (y j) = _
  rw [Sage.ofBits_one]

/-- REGION 0'S MEAN INPUT: the host code before the first layer leaves, in the buffer the first window stages, the
    aggregated neighbour sum times the reciprocal of the clamped in-degree. -/
theorem entry0_mean :
    V1 m ρ c main_v24
      = ((fun i => Cert.ReferenceIdeal.Read.val_main_v13 (F := Ideal) (a0 m c) (a1 m c) i
            * Ideal.div 1 (Cert.ReferenceIdeal.Read.val_main_v19 (F := Ideal) (a1 m c) (ix1 (i 0)))) : Sage.Mat 50000 256) := by
  have e : V1 m ρ c main_v24 = mulf (Cert.ReferenceIdeal.Read.val_main_v13 (F := Ideal) (a0 m c) (a1 m c))
      (broadcastInDim S50000x256 ![0, 1] bcast_S50000x1_S50000x256_0_1 (broadcastInDim S50000x1 ![0] bcast_S50000_S50000x1_0
        (Host.divf (F := Ideal) (broadcastInDim S50000 ![] bcast_S_S50000 (constant (F := Ideal) S_ .f32 0x3F800000#32))
          (Cert.ReferenceIdeal.Read.val_main_v19 (F := Ideal) (a1 m c))))) := by
    show StableHlo.after hostOps0 (W0 m ρ c) (Proc.devRef .tc main_v24) = _
    after_results_simp
    rfl
  rw [e]
  funext i
  rw [mulf_apply, col_bcast_apply, recip_apply]

/-! ## Region 0: its other inputs, and what it leaves -/

theorem entry0_x : V1 m ρ c main_arg0 = a0 m c := by
  show StableHlo.after hostOps0 (W0 m ρ c) (Proc.devRef .tc main_arg0) = _
  after_results_simp <;> rfl

theorem entry0_wl : V1 m ρ c main_arg3 = a3 m c := by
  show StableHlo.after hostOps0 (W0 m ρ c) (Proc.devRef .tc main_arg3) = _
  after_results_simp <;> rfl

theorem entry0_wr : V1 m ρ c main_arg5 = a5 m c := by
  show StableHlo.after hostOps0 (W0 m ρ c) (Proc.devRef .tc main_arg5) = _
  after_results_simp <;> rfl

/-- A bias vector recast as one row, read at an index: the vector at the column. -/
theorem bias_row (b : (⟨Cert.ReferenceIdeal.S256, .f32⟩ : BufTy).Contents (Elt Ideal)) :
    shapeCast S1x256 b shapeCasts_S256_S1x256 = Cert.ReferenceIdeal.Stages.biasRow b := by
  funext j
  obtain ⟨u, q, rfl⟩ : ∃ (u : Fin 1) (q : Fin 256), j = ix2 u q := ⟨j 0, j 1, eq_ix2 j⟩
  exact shapeCast_a_1a_apply b shapeCasts_S256_S1x256 u q

theorem entry0_b : V1 m ρ c main_v25 = Cert.ReferenceIdeal.Stages.biasRow (a4 m c) := by
  have e : V1 m ρ c main_v25 = shapeCast S1x256 (a4 m c) shapeCasts_S256_S1x256 := by
    show StableHlo.after hostOps0 (W0 m ρ c) (Proc.devRef .tc main_v25) = _
    after_results_simp <;> rfl
  rw [e, bias_row]

/-- AFTER REGION 0 its output array holds the reference's first hidden layer. -/
theorem exit0_hidden :
    W2 m ρ c (Proc.devRef .tc main_v26)
      = Cert.ReferenceIdeal.Read.val_main_v31 (F := Ideal) (a0 m c) (a1 m c) (a3 m c) (a4 m c) (a5 m c) := by
  refine (W2_arr m ρ c 5).trans ?_
  rw [Cert.KernelIdeal.Regions.region0 (V1 m ρ) c _ _ _ _ _ (entry0_mean m ρ c) (entry0_x m ρ c) (entry0_wl m ρ c) (entry0_b m ρ c) (entry0_wr m ρ c)]
  rw [Cert.ReferenceIdeal.Stages.hidden1_eq, Cert.ReferenceIdeal.Stages.mean1_eq]

/-! ## Between regions 0 and 1: the second layer's mean input -/

theorem src_kept : W2 m ρ c (Proc.devRef .tc main_v1) = Cert.ReferenceIdeal.Read.val_main_v1 (F := Ideal) (a1 m c) := by
  refine (W2_of_ne m ρ c main_v1 (by decide)).trans ?_
  show StableHlo.after hostOps0 (W0 m ρ c) (Proc.devRef .tc main_v1) = _
  after_results_simp <;> rfl

theorem dst_kept : W2 m ρ c (Proc.devRef .tc main_v3) = Cert.ReferenceIdeal.Read.val_main_v3 (F := Ideal) (a1 m c) := by
  refine (W2_of_ne m ρ c main_v3 (by decide)).trans ?_
  show StableHlo.after hostOps0 (W0 m ρ c) (Proc.devRef .tc main_v3) = _
  after_results_simp <;> rfl

theorem recip_kept :
    W2 m ρ c (Proc.devRef .tc main_v12)
      = broadcastInDim S50000x1 ![0] bcast_S50000_S50000x1_0
          (Host.divf (F := Ideal) (broadcastInDim S50000 ![] bcast_S_S50000 (constant (F := Ideal) S_ .f32 0x3F800000#32))
            (Cert.ReferenceIdeal.Read.val_main_v19 (F := Ideal) (a1 m c))) := by
  refine (W2_of_ne m ρ c main_v12 (by decide)).trans ?_
  show StableHlo.after hostOps0 (W0 m ρ c) (Proc.devRef .tc main_v12) = _
  after_results_simp <;> rfl

/-- REGION 1'S MEAN INPUT: the neighbour sum of the first hidden layer times the reciprocal of the clamped in-degree. -/
theorem entry1_mean :
    V3 m ρ c main_v38
      = ((fun i => Cert.ReferenceIdeal.Read.val_main_v13 (F := Ideal)
              (Cert.ReferenceIdeal.Read.val_main_v31 (F := Ideal) (a0 m c) (a1 m c) (a3 m c) (a4 m c) (a5 m c)) (a1 m c) i
            * Ideal.div 1 (Cert.ReferenceIdeal.Read.val_main_v19 (F := Ideal) (a1 m c) (ix1 (i 0)))) : Sage.Mat 50000 256) := by
  have e : V3 m ρ c main_v38 = mulf (Cert.ReferenceIdeal.Read.val_main_v13 (F := Ideal)
        (Cert.ReferenceIdeal.Read.val_main_v31 (F := Ideal) (a0 m c) (a1 m c) (a3 m c) (a4 m c) (a5 m c)) (a1 m c))
      (broadcastInDim S50000x256 ![0, 1] bcast_S50000x1_S50000x256_0_1 (broadcastInDim S50000x1 ![0] bcast_S50000_S50000x1_0
        (Host.divf (F := Ideal) (broadcastInDim S50000 ![] bcast_S_S50000 (constant (F := Ideal) S_ .f32 0x3F800000#32))
          (Cert.ReferenceIdeal.Read.val_main_v19 (F := Ideal) (a1 m c))))) := by
    show StableHlo.after hostOps1 (W2 m ρ c) (Proc.devRef .tc main_v38) = _
    after_results_simp
    rw [exit0_hidden, src_kept, dst_kept, recip_kept]
    rfl
  rw [e]
  funext i
  rw [mulf_apply, col_bcast_apply, recip_apply]

theorem entry1_x :
    V3 m ρ c main_v26 = Cert.ReferenceIdeal.Read.val_main_v31 (F := Ideal) (a0 m c) (a1 m c) (a3 m c) (a4 m c) (a5 m c) := by
  show StableHlo.after hostOps1 (W2 m ρ c) (Proc.devRef .tc main_v26) = _
  after_results_simp
  exact exit0_hidden m ρ c

theorem entry1_wl : V3 m ρ c main_arg6 = a6 m c := by
  show StableHlo.after hostOps1 (W2 m ρ c) (Proc.devRef .tc main_arg6) = _
  after_results_simp
  refine (W2_of_ne m ρ c main_arg6 (by decide)).trans ?_
  show StableHlo.after hostOps0 (W0 m ρ c) (Proc.devRef .tc main_arg6) = _
  after_results_simp <;> rfl

theorem entry1_wr : V3 m ρ c main_arg8 = a8 m c := by
  show StableHlo.after hostOps1 (W2 m ρ c) (Proc.devRef .tc main_arg8) = _
  after_results_simp
  refine (W2_of_ne m ρ c main_arg8 (by decide)).trans ?_
  show StableHlo.after hostOps0 (W0 m ρ c) (Proc.devRef .tc main_arg8) = _
  after_results_simp <;> rfl

theorem bias2_kept : W2 m ρ c (Proc.devRef .tc main_arg7) = a7 m c := by
  refine (W2_of_ne m ρ c main_arg7 (by decide)).trans ?_
  show StableHlo.after hostOps0 (W0 m ρ c) (Proc.devRef .tc main_arg7) = _
  after_results_simp <;> rfl

theorem entry1_b : V3 m ρ c main_v39 = Cert.ReferenceIdeal.Stages.biasRow (a7 m c) := by
  have e : V3 m ρ c main_v39 = shapeCast S1x256 (a7 m c) shapeCasts_S256_S1x256 := by
    show StableHlo.after hostOps1 (W2 m ρ c) (Proc.devRef .tc main_v39) = _
    after_results_simp
    rw [bias2_kept]
    rfl
  rw [e, bias_row]

/-- AFTER REGION 1 its output array holds the reference's second layer. -/
theorem exit1_hidden :
    W4 m ρ c (Proc.devRef .tc main_v40)
      = Cert.ReferenceIdeal.Read.val_main_v58 (F := Ideal) (a0 m c) (a1 m c) (a3 m c) (a4 m c) (a5 m c) (a6 m c) (a7 m c) (a8 m c) := by
  refine (W4_arr m ρ c 5).trans ?_
  rw [Cert.KernelIdeal.Regions.region1 (V3 m ρ) c _ _ _ _ _ (entry1_mean m ρ c) (entry1_x m ρ c) (entry1_wl m ρ c) (entry1_b m ρ c) (entry1_wr m ρ c)]
  rw [Cert.ReferenceIdeal.Stages.hidden2_eq, Cert.ReferenceIdeal.Stages.mean2_eq]

/-! ## Region 2: the second layer and the picked row in, the logits out -/

theorem entry2_h :
    V5 m ρ c main_v40
      = Cert.ReferenceIdeal.Read.val_main_v58 (F := Ideal) (a0 m c) (a1 m c) (a3 m c) (a4 m c) (a5 m c) (a6 m c) (a7 m c) (a8 m c) := by
  show StableHlo.after hostOps2 (W4 m ρ c) (Proc.devRef .tc main_v40) = _
  after_results_simp
  exact exit1_hidden m ρ c

theorem pick_kept : W4 m ρ c (Proc.devRef .tc main_arg2) = a2 m c := by
  refine (W4_of_ne m ρ c main_arg2 (by decide)).trans ?_
  show StableHlo.after hostOps1 (W2 m ρ c) (Proc.devRef .tc main_arg2) = _
  after_results_simp
  refine (W2_of_ne m ρ c main_arg2 (by decide)).trans ?_
  show StableHlo.after hostOps0 (W0 m ρ c) (Proc.devRef .tc main_arg2) = _
  after_results_simp <;> rfl

/-- The picked row: the same gather of the same second-layer array by the same normalised index. -/
theorem entry2_row :
    V5 m ρ c main_v47
      = Cert.ReferenceIdeal.Read.val_main_v65 (F := Ideal) (a0 m c) (a1 m c) (a2 m c) (a3 m c) (a4 m c) (a5 m c) (a6 m c) (a7 m c) (a8 m c) := by
  show StableHlo.after hostOps2 (W4 m ρ c) (Proc.devRef .tc main_v47) = _
  after_results_simp
  rw [exit1_hidden, pick_kept]
  rfl

/-- AFTER REGION 2 its output column holds every row's dot product with the picked row. -/
theorem exit2_logits :
    W6 m ρ c (Proc.devRef .tc main_v48)
      = Sage.logitsOf (Cert.ReferenceIdeal.Read.val_main_v58 (F := Ideal) (a0 m c) (a1 m c) (a3 m c) (a4 m c) (a5 m c) (a6 m c) (a7 m c) (a8 m c))
          (Cert.ReferenceIdeal.Read.val_main_v65 (F := Ideal) (a0 m c) (a1 m c) (a2 m c) (a3 m c) (a4 m c) (a5 m c) (a6 m c) (a7 m c) (a8 m c)) := by
  refine (W6_arr m ρ c 2).trans ?_
  exact Cert.KernelIdeal.Regions.region2 (V5 m ρ) c _ _ (entry2_h m ρ c) (entry2_row m ρ c)

/-! ## The tail: the column recast as a vector, then the shared softmax -/

/-- THE RESULT: at the last boundary the result buffer holds the reference's result, as a function of the launch
    contents of the argument arrays. -/
theorem result_eq :
    W7 m ρ c (Proc.devRef .tc main_v59)
      = Cert.ReferenceIdeal.Read.val_main_v78 (F := Ideal) (a0 m c) (a1 m c) (a2 m c) (a3 m c) (a4 m c) (a5 m c) (a6 m c) (a7 m c) (a8 m c) := by
  show StableHlo.after hostOps3 (W6 m ρ c) (Proc.devRef .tc main_v59) = _
  after_results_simp
  rw [exit2_logits, Cert.ReferenceIdeal.Stages.result_eq_tail, Cert.ReferenceIdeal.Stages.logits_eq]
  generalize Sage.logitsOf _ _ = lg
  have hz : (shapeCast S50000 lg shapeCasts_S50000x1_S50000 : S50000.Idx → EReal) = fun i : S50000.Idx => lg (ix2 (i 0) 0) := by
    funext i
    obtain ⟨p, rfl⟩ : ∃ p : Fin 50000, i = ix1 p := ⟨i 0, eq_ix1 i⟩
    exact Cert.Lib.ColumnCast.shapeCast_a1_a_apply lg shapeCasts_S50000x1_S50000 p
  rw [← hz]
  rfl

end Cert.KernelIdeal.Chain
end
-- ==== Proof.lean ====
/-
  Two-layer mean-aggregation graph convolution with a softmax over every node's dot product with one picked node:
  the kernel program (three pipelined regions among host operations) against the plain reference, over the
  extended reals.

  Both programs gather the source rows of every edge, add them up per destination and count the edges per
  destination (the clamped in-degree, at least one). The kernel multiplies the sum by the reciprocal of the clamped
  degree, the reference divides by it: off zero the quotient is the product with the inverse, so the two means are
  one function. Each dense layer is  mean · Wlᵀ + x · Wrᵀ + b  (the kernel adds the bias last, the reference
  between the two products: addition of extended reals is commutative and associative; the kernel's change of
  float format is the identity here), the first followed by the maximum with zero. The last region takes every
  row's dot product with the picked row (the reference multiplies in the other order and sums on the host), and
  both programs end with the same softmax, carried as one function and never opened.

  The frames of the two kernel programs are generated; the reference's frame is its generated run with the result
  dropped; no rewrite was applied when the kernel was idealized, so that claim is trivial; the value claim reads
  the kernel's result off the fold of buffer contents through @main's segments (each region's output array by
  its blocks, each host stretch by its operations) and finds the reference's stages there one by one.
-/
import proofs.«167765_j85134841741882_1_alg».proof.Defs
import proofs.«167765_j85134841741882_1_alg».proof.Proof.Gen.Kernel
import proofs.«167765_j85134841741882_1_alg».proof.Proof.Gen.Kernel.Frame
import proofs.«167765_j85134841741882_1_alg».proof.Proof.Gen.KernelIdeal
import proofs.«167765_j85134841741882_1_alg».proof.Proof.Gen.KernelIdeal.Frame
import proofs.«167765_j85134841741882_1_alg».proof.Proof.Gen.ReferenceIdeal
import proofs.«167765_j85134841741882_1_alg».proof.Proof.Gen.ReferenceIdeal.Run
import proofs.«167765_j85134841741882_1_alg».proof.Proof.Gen.ReferenceIdeal.Read
import proofs.«167765_j85134841741882_1_alg».proof.Proof.Gen.Pre_finite_inputs
import proofs.«167765_j85134841741882_1_alg».proof.Proof.KernelIdealRun
import proofs.«167765_j85134841741882_1_alg».proof.Proof.KernelChain
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of the arguments. -/
theorem algebraic : Cert.algebraic_KernelIdeal_ReferenceIdeal := by
  intro m ρ m' ρ' _ hagree
  refine ⟨fun c => Cert.ReferenceIdeal.Read.val_main_v78 (F := Ideal) (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c)
      (Cert.KernelIdeal.Chain.a6 m c) (Cert.KernelIdeal.Chain.a7 m c) (Cert.KernelIdeal.Chain.a8 m c), ?_, ?_⟩
  · exact (θ_run Cert.KernelIdeal.defs _ _).mono
      (fun r h c => ⟨(h c).1.trans (Cert.KernelIdeal.Chain.result_eq m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v78_eq]
    obtain ⟨h0, h1, h2, h3, h4, h5, h6, h7, h8⟩ := hagree c
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
